-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S128 .f32) (main_arg7 : FVec F S10x128 .f32) (main_arg8 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S10x128 .f32 := Host.absf main_arg7
  let main_cst_8 : FVec F S_ .f32 := constant S_ .f32 0x7F800000#32
  let main_v25 : FVec F S10x128 .f32 := broadcastInDim S10x128 ![] bcast_S_S10x128 main_cst_8
  let main_v26 : IVec S10x128 1 := cmpf .olt main_v24 main_v25
  let main_c_9 : IVec S_ 1 := constantI S_ 1 1#1
  let main_v27 : IVec S_ 1 := (fun x v => Host.reduce IntOp.andi x v reducesTo_S10x128_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S128x128 .f32) (main_arg6 : FVec F S128 .f32) (main_arg7 : FVec F S10x128 .f32) (main_arg8 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S50000x1 : Shape := ⟨2, ![50000, 1]⟩
abbrev S1x128 : Shape := ⟨2, ![1, 128]⟩
abbrev S5000x128 : Shape := ⟨2, ![5000, 128]⟩
abbrev S64x128 : Shape := ⟨2, ![64, 128]⟩
abbrev S64 : Shape := ⟨1, ![64]⟩
abbrev S64x1 : Shape := ⟨2, ![64, 1]⟩
abbrev S128x10 : Shape := ⟨2, ![128, 10]⟩
abbrev S1x10 : Shape := ⟨2, ![1, 10]⟩
abbrev S64x10 : Shape := ⟨2, ![64, 10]⟩

abbrev nBuf : Space → Nat
  | .hbm => 91
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S10x128, .f32⟩
  | .hbm, ⟨8, _⟩ => ⟨S10, .f32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S50000, .i32⟩
  | .hbm, ⟨14, _⟩ => ⟨S650000, .i32⟩
  | .hbm, ⟨15, _⟩ => ⟨S650000, .i32⟩
  | .hbm, ⟨16, _⟩ => ⟨S_, .i32⟩
  | .hbm, ⟨17, _⟩ => ⟨S650000, .i32⟩
  | .hbm, ⟨18, _⟩ => ⟨S650000, .i1⟩
  | .hbm, ⟨19, _⟩ => ⟨S_, .i32⟩
  | .hbm, ⟨20, _⟩ => ⟨S650000, .i32⟩
  | .hbm, ⟨21, _⟩ => ⟨S650000, .i32⟩
  | .hbm, ⟨22, _⟩ => ⟨S650000, .i32⟩
  | .hbm, ⟨23, _⟩ => ⟨S650000x1, .i32⟩
  | .hbm, ⟨24, _⟩ => ⟨S650000x128, .f32⟩
  | .hbm, ⟨25, _⟩ => ⟨S_, .f32⟩
  | .hbm, ⟨26, _⟩ => ⟨S50000x128, .f32⟩
  | .hbm, ⟨27, _⟩ => ⟨S650000x1, .i32⟩
  | .hbm, ⟨28, _⟩ => ⟨S50000x128, .f32⟩
  | .hbm, ⟨29, _⟩ => ⟨S_, .f32⟩
  | .hbm, ⟨30, _⟩ => ⟨S650000, .f32⟩
  | .hbm, ⟨31, _⟩ => ⟨S_, .f32⟩
  | .hbm, ⟨32, _⟩ => ⟨S50000, .f32⟩
  | .hbm, ⟨33, _⟩ => ⟨S650000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S128x128, .f32⟩
  | .hbm, ⟨42, _⟩ => ⟨S1x128, .f32⟩
  | .hbm, ⟨43, _⟩ => ⟨S50000x128, .f32⟩
  | .hbm, ⟨44, _⟩ => ⟨S_, .i32⟩
  | .hbm, ⟨45, _⟩ => ⟨S650000, .i32⟩
  | .hbm, ⟨46, _⟩ => ⟨S650000, .i1⟩
  | .hbm, ⟨47, _⟩ => ⟨S_, .i32⟩
  | .hbm, ⟨48, _⟩ => ⟨S650000, .i32⟩
  | .hbm, ⟨49, _⟩ => ⟨S650000, .i32⟩
  | .hbm, ⟨50, _⟩ => ⟨S650000, .i32⟩
  | .hbm, ⟨51, _⟩ => ⟨S650000x1, .i32⟩
  | .hbm, ⟨52, _⟩ => ⟨S650000x128, .f32⟩
  | .hbm, ⟨53, _⟩ => ⟨S_, .f32⟩
  | .hbm, ⟨54, _⟩ => ⟨S50000x128, .f32⟩
  | .hbm, ⟨55, _⟩ => ⟨S650000x1, .i32⟩
  | .hbm, ⟨56, _⟩ => ⟨S50000x128, .f32⟩
  | .hbm, ⟨57, _⟩ => ⟨S_, .f32⟩
  | .hbm, ⟨58, _⟩ => ⟨S650000, .f32⟩
  | .hbm, ⟨59, _⟩ => ⟨S_, .f32⟩
  | .hbm, ⟨60, _⟩ => ⟨S50000, .f32⟩
  | .hbm, ⟨61, _⟩ => ⟨S650000x1, .i32⟩
  | .hbm, ⟨62, _⟩ => ⟨S50000, .f32⟩
  | .hbm, ⟨63, _⟩ => ⟨S_, .f32⟩
  | .hbm, ⟨64, _⟩ => ⟨S50000, .f32⟩
  | .hbm, ⟨65, _⟩ => ⟨S50000, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S128x128, .f32⟩
  | .hbm, ⟨70, _⟩ => ⟨S1x128, .f32⟩
  | .hbm, ⟨71, _⟩ => ⟨S50000x128, .f32⟩
  | .hbm, ⟨72, _⟩ => ⟨S_, .f32⟩
  | .hbm, ⟨73, _⟩ => ⟨S64x128, .f32⟩
  | .hbm, ⟨74, _⟩ => ⟨S50000x1, .i32⟩
  | .hbm, ⟨75, _⟩ => ⟨S64x128, .f32⟩
  | .hbm, ⟨76, _⟩ => ⟨S_, .f32⟩
  | .hbm, ⟨77, _⟩ => ⟨S50000, .f32⟩
  | .hbm, ⟨78, _⟩ => ⟨S_, .f32⟩
  | .hbm, ⟨79, _⟩ => ⟨S64, .f32⟩
  | .hbm, ⟨80, _⟩ => ⟨S50000x1, .i32⟩
  | .hbm, ⟨81, _⟩ => ⟨S64, .f32⟩
  | .hbm, ⟨82, _⟩ => ⟨S_, .f32⟩
  | .hbm, ⟨83, _⟩ => ⟨S64, .f32⟩
  | .hbm, ⟨84, _⟩ => ⟨S64, .f32⟩
  | .hbm, ⟨85, _⟩ => ⟨S64x1, .f32⟩
  | .hbm, ⟨86, _⟩ => ⟨S64x128, .f32⟩
  | .hbm, ⟨87, _⟩ => ⟨S64x128, .f32⟩
  | .hbm, ⟨88, _⟩ => ⟨S128x10, .f32⟩
  | .hbm, ⟨89, _⟩ => ⟨S1x10, .f32⟩
  | .hbm, ⟨90, _⟩ => ⟨S64x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S64x128, .f32⟩
  | .local _ .vmem, ⟨13, _⟩ => ⟨S128x10, .f32⟩
  | .local _ .vmem, ⟨14, _⟩ => ⟨S1x10, .f32⟩
  | .local _ .vmem, ⟨15, _⟩ => ⟨S64x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_13 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem1_0 : DmaSem sig := 13
abbrev cc2_sem2_0 : DmaSem sig := 14
abbrev cc2_sem3_0 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S650000_S650000x1_0 : S650000.BroadcastsInDim S650000x1 (![0] : Fin 1 → Fin S650000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  transposes_S10x128_S128x10_1_0 : S10x128.Transposes [1, 0] S128x10
  shapeCasts_S10_S1x10 : S10.ShapeCasts S1x10
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S50000_S650000x1_S650000_n_0_0_1_wf : ScatterDims.WF S50000 S650000x1 S650000 [] [0] [0] 1
  dot_S5000x128_S128x128_S5000x128_1_0_0_1_n_n_wf : DotDims.WF S5000x128 S128x128 S5000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x128.size a ≤ S64x128.size a
  hwx2_0 : ∀ i : grid2.Coords, EltTy.bits .f32 = 32 ∨ (Rect.block (s := S64x128) S64x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x10.size a ≤ S128x10.size a
  hwx2_1 : ∀ i : grid2.Coords, EltTy.bits .f32 = 32 ∨ (Rect.block (s := S128x10) S128x10.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x10.size a ≤ S1x10.size a
  hwx2_2 : ∀ i : grid2.Coords, EltTy.bits .f32 = 32 ∨ (Rect.block (s := S1x10) S1x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x10.size a ≤ S64x10.size a
  hwx2_3 : ∀ i : grid2.Coords, EltTy.bits .f32 = 32 ∨ (Rect.block (s := S64x10) S64x10.size (cc2_transform_3 i) (hinb2_3 i)).WholeWords (EltTy.packing .f32)

variable [Facts₀]

def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_v25) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S64x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v63) S128x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S1x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S64x10.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S50000x1 : Shape := ⟨2, ![50000, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S128x10 : Shape := ⟨2, ![128, 10]⟩
abbrev S64x10 : Shape := ⟨2, ![64, 10]⟩
abbrev S1x10 : Shape := ⟨2, ![1, 10]⟩

abbrev nBuf : Space → Nat
  | .hbm => 109
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S10x128, .f32⟩
  | .hbm, ⟨8, _⟩ => ⟨S10, .f32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S50000, .i32⟩
  | .hbm, ⟨14, _⟩ => ⟨S650000, .i32⟩
  | .hbm, ⟨15, _⟩ => ⟨S650000, .i32⟩
  | .hbm, ⟨16, _⟩ => ⟨S_, .i32⟩
  | .hbm, ⟨17, _⟩ => ⟨S650000, .i32⟩
  | .hbm, ⟨18, _⟩ => ⟨S650000, .i1⟩
  | .hbm, ⟨19, _⟩ => ⟨S_, .i32⟩
  | .hbm, ⟨20, _⟩ => ⟨S650000, .i32⟩
  | .hbm, ⟨21, _⟩ => ⟨S650000, .i32⟩
  | .hbm, ⟨22, _⟩ => ⟨S650000, .i32⟩
  | .hbm, ⟨23, _⟩ => ⟨S650000x1, .i32⟩
  | .hbm, ⟨24, _⟩ => ⟨S650000x128, .f32⟩
  | .hbm, ⟨25, _⟩ => ⟨S_, .f32⟩
  | .hbm, ⟨26, _⟩ => ⟨S50000x128, .f32⟩
  | .hbm, ⟨27, _⟩ => ⟨S650000x1, .i32⟩
  | .hbm, ⟨28, _⟩ => ⟨S50000x128, .f32⟩
  | .hbm, ⟨29, _⟩ => ⟨S_, .f32⟩
  | .hbm, ⟨30, _⟩ => ⟨S650000, .f32⟩
  | .hbm, ⟨31, _⟩ => ⟨S_, .f32⟩
  | .hbm, ⟨32, _⟩ => ⟨S50000, .f32⟩
  | .hbm, ⟨33, _⟩ => ⟨S650000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S128x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S50000, .i32⟩
  | .hbm, ⟨50, _⟩ => ⟨S650000, .i32⟩
  | .hbm, ⟨51, _⟩ => ⟨S650000, .i32⟩
  | .hbm, ⟨52, _⟩ => ⟨S_, .i32⟩
  | .hbm, ⟨53, _⟩ => ⟨S650000, .i32⟩
  | .hbm, ⟨54, _⟩ => ⟨S650000, .i1⟩
  | .hbm, ⟨55, _⟩ => ⟨S_, .i32⟩
  | .hbm, ⟨56, _⟩ => ⟨S650000, .i32⟩
  | .hbm, ⟨57, _⟩ => ⟨S650000, .i32⟩
  | .hbm, ⟨58, _⟩ => ⟨S650000, .i32⟩
  | .hbm, ⟨59, _⟩ => ⟨S650000x1, .i32⟩
  | .hbm, ⟨60, _⟩ => ⟨S650000x128, .f32⟩
  | .hbm, ⟨61, _⟩ => ⟨S_, .f32⟩
  | .hbm, ⟨62, _⟩ => ⟨S50000x128, .f32⟩
  | .hbm, ⟨63, _⟩ => ⟨S650000x1, .i32⟩
  | .hbm, ⟨64, _⟩ => ⟨S50000x128, .f32⟩
  | .hbm, ⟨65, _⟩ => ⟨S_, .f32⟩
  | .hbm, ⟨66, _⟩ => ⟨S650000, .f32⟩
  | .hbm, ⟨67, _⟩ => ⟨S_, .f32⟩
  | .hbm, ⟨68, _⟩ => ⟨S50000, .f32⟩
  | .hbm, ⟨69, _⟩ => ⟨S650000x1, .i32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x128, .f32⟩
  | .hbm, ⟨76, _⟩ => ⟨S50000x128, .f32⟩
  | .hbm, ⟨77, _⟩ => ⟨S128x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S64x128, .f32⟩
  | .hbm, ⟨87, _⟩ => ⟨S50000x1, .i32⟩
  | .hbm, ⟨88, _⟩ => ⟨S64x128, .f32⟩
  | .hbm, ⟨89, _⟩ => ⟨S_, .f32⟩
  | .hbm, ⟨90, _⟩ => ⟨S50000, .f32⟩
  | .hbm, ⟨91, _⟩ => ⟨S_, .f32⟩
  | .hbm, ⟨92, _⟩ => ⟨S64, .f32⟩
  | .hbm, ⟨93, _⟩ => ⟨S50000x1, .i32⟩
  | .hbm, ⟨94, _⟩ => ⟨S64, .f32⟩
  | .hbm, ⟨95, _⟩ => ⟨S_, .f32⟩
  | .hbm, ⟨96, _⟩ => ⟨S64, .f32⟩
  | .hbm, ⟨97, _⟩ => ⟨S64, .f32⟩
  | .hbm, ⟨98, _⟩ => ⟨S64x1, .f32⟩
  | .hbm, ⟨99, _⟩ => ⟨S64x128, .f32⟩
  | .hbm, ⟨100, _⟩ => ⟨S64x128, .f32⟩
  | .hbm, ⟨101, _⟩ => ⟨S_, .f32⟩
  | .hbm, ⟨102, _⟩ => ⟨S64x128, .f32⟩
  | .hbm, ⟨103, _⟩ => ⟨S64x128, .f32⟩
  | .hbm, ⟨104, _⟩ => ⟨S128x10, .f32⟩
  | .hbm, ⟨105, _⟩ => ⟨S64x10, .f32⟩
  | .hbm, ⟨106, _⟩ => ⟨S1x10, .f32⟩
  | .hbm, ⟨107, _⟩ => ⟨S64x10, .f32⟩
  | .hbm, ⟨108, _⟩ => ⟨S64x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_cst : Ref sig .tc := ⟨.hbm, 46, rfl⟩
abbrev main_call0_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_4 : Ref sig .tc := ⟨.hbm, 52, rfl⟩
abbrev main_v35 : Ref sig .tc := ⟨.hbm, 53, rfl⟩
abbrev main_v36 : Ref sig .tc := ⟨.hbm, 54, rfl⟩
abbrev main_c_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_v59 : Ref sig .tc := ⟨.hbm, 84, rfl⟩
abbrev main_cst_10 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_11 : Ref sig .tc := ⟨.hbm, 89, rfl⟩
abbrev main_v63 : Ref sig .tc := ⟨.hbm, 90, rfl⟩
abbrev main_cst_12 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_13 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_call2_cst : Ref sig .tc := ⟨.hbm, 101, rfl⟩
abbrev main_call2_v0 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S650000_S650000x1_0 : S650000.BroadcastsInDim S650000x1 (![0] : Fin 1 → Fin S650000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  transposes_S10x128_S128x10_1_0 : S10x128.Transposes [1, 0] S128x10
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S50000_S650000x1_S650000_n_0_0_1_wf : ScatterDims.WF S50000 S650000x1 S650000 [] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []

variable [Facts₀]

def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«162848_j20289425506743_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibBiasLayer.lean ====
/-
  A dense layer with a bias row, as plain functions of matrices of extended reals, and each way a program spells it.

  `affine x w b` is the `[a, N]` matrix whose entry `(r, q)` is the row product `∑ₖ x (r, k) · w (k, q)` plus the
  bias `b q`; `reluAffine x w b` clamps every entry of it at zero from below. Both are stated entry by entry, so
  they read the same on a block of rows and on the whole matrix: entry `(r, q)` depends on `x` only through its
  row `r` (`affine_congr`, `reluAffine_congr`).

  A vector program lays the bias `[N]` out as a row `[1, N]` by a shape cast and over the `a` rows by a
  broadcast; a host program does both steps by `broadcast_in_dim`. Either way the laid-out bias read at `(r, q)`
  is `b q` (`row_over_rows_apply`, `host_row_over_rows_apply`). With the matrix product into a zero accumulator,
  respectively the `dot_general`, read as the row product, the whole layer read at `(r, q)` at the ideal values is
  `affine` (`vector_affine_apply`, `host_affine_apply`), and followed by the maximum against a splat of zero it is
  `reluAffine` (`vector_reluAffine_apply`, `host_reluAffine_apply`).

  All are generic in the extents.
-/
import Idealize.ShloMosaic.Lib.Pipeline.Value
import Idealize.ShloMosaic.Lib.ValueIdx
import Idealize.ShloMosaic.Lib.ValueLayout
import Idealize.ShloMosaic.PureOps.Ideal.Laws
import proofs.«162848_j20289425506743_1_alg».proof.Proof.LibDenseLayer

noncomputable section

namespace Cert.BiasLayer

open Idealize.ShloMosaic Idealize.ShloMosaic.ValueIdx Cert.DenseLayer

/-- A vector of `n` extended reals, indexed as the arrays are. -/
abbrev Row (n : ℕ) : Type := (⟨1, ![n]⟩ : Shape).Idx → EReal

variable {a K N : ℕ}

/-! ## The layer -/

/-- `x · w + b`, entry by entry: at `(r, q)` the row product of row `r` with column `q`, plus `b q`. -/
def affine (x : Mat a K) (w : Mat K N) (b : Row N) : Mat a N :=
  fun i => prodRow x w (i 0) (i 1) + b (ix1 (i 1))

/-- `x · w + b` clamped at zero from below, entry by entry (the zero written as the word a program writes). -/
def reluAffine (x : Mat a K) (w : Mat K N) (b : Row N) : Mat a N :=
  fun i => max (affine x w b i) (Ideal.ofBits .f32 0x00000000#32)

theorem affine_apply (x : Mat a K) (w : Mat K N) (b : Row N) (r : Fin a) (q : Fin N) :
    affine x w b (ix2 r q) = prodRow x w r q + b (ix1 q) := rfl

theorem reluAffine_apply (x : Mat a K) (w : Mat K N) (b : Row N) (r : Fin a) (q : Fin N) :
    reluAffine x w b (ix2 r q) = max (affine x w b (ix2 r q)) (Ideal.ofBits .f32 0x00000000#32) := rfl

/-- An entry of the layer depends on the left matrix only through the entry's row. -/
theorem affine_congr {a' : ℕ} (x : Mat a K) (x' : Mat a' K) (w : Mat K N) (b : Row N) (r : Fin a) (r' : Fin a')
    (h : ∀ k, x (ix2 r k) = x' (ix2 r' k)) (q : Fin N) : affine x w b (ix2 r q) = affine x' w b (ix2 r' q) := by
  rw [affine_apply, affine_apply, prodRow_congr x x' w r r' h]

/-- The same for the clamped layer. -/
theorem reluAffine_congr {a' : ℕ} (x : Mat a K) (x' : Mat a' K) (w : Mat K N) (b : Row N) (r : Fin a) (r' : Fin a')
    (h : ∀ k, x (ix2 r k) = x' (ix2 r' k)) (q : Fin N) :
    reluAffine x w b (ix2 r q) = reluAffine x' w b (ix2 r' q) := by
  rw [reluAffine_apply, reluAffine_apply, affine_congr x x' w b r r' h q]

/-! ## The bias laid over the rows -/

variable {α : Type}

/-- A vector `[N]` cast to the row `[1, N]` reads, at `(u, q)`, the vector at `q`, whatever the unit coordinate. -/
theorem shapeCast_n_1n_apply (v : (⟨1, ![N]⟩ : Shape).Idx → α) (h : (⟨1, ![N]⟩ : Shape).ShapeCasts ⟨2, ![1, N]⟩)
    (u : Fin 1) (q : Fin N) : shapeCast ⟨2, ![1, N]⟩ v h (ix2 u q) = v (ix1 q) :=
  shapeCast_apply v h _ _ (by
    have hu : u.val = 0 := by omega
    rw [Shape.rowMajor_val_two, Shape.rowMajor_val_one]
    show q.val = u.val * N + q.val
    rw [hu, Nat.zero_mul, Nat.zero_add])

/-- A vector program's bias: the vector as a row, broadcast over `a` rows, is `v q` at `(r, q)`. -/
theorem row_over_rows_apply (v : (⟨1, ![N]⟩ : Shape).Idx → α) (hc : (⟨1, ![N]⟩ : Shape).ShapeCasts ⟨2, ![1, N]⟩)
    (hb : (⟨2, ![1, N]⟩ : Shape).Broadcasts ⟨2, ![a, N]⟩) (r : Fin a) (q : Fin N) :
    broadcastTo ⟨2, ![a, N]⟩ (shapeCast ⟨2, ![1, N]⟩ v hc) hb (ix2 r q) = v (ix1 q) :=
  (broadcastTo_1b_ab_apply _ hb r q).trans (shapeCast_n_1n_apply v hc 0 q)

/-- A host program's bias: the vector broadcast into the row `[1, N]` along its second axis, then over `a` rows,
    is `v q` at `(r, q)`. -/
theorem host_row_over_rows_apply (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    broadcastInDim ⟨2, ![a, N]⟩ ![0, 1] h2 (broadcastInDim ⟨2, ![1, N]⟩ ![1] h1 v) (ix2 r q) = v (ix1 q) := by
  have hq : q.val = if N = 1 then 0 else q.val := by
    split
    · have := q.isLt; omega
    · rfl
  refine (broadcastInDim_apply _ h2 _ (ix2 r q) (ix2 (0 : Fin 1) q) fun ax => ?_).trans
    (broadcastInDim_apply _ h1 v (ix2 (0 : Fin 1) q) (ix1 q) fun ax => ?_)
  · match ax with
    | ⟨0, _⟩ => rfl
    | ⟨1, _⟩ => exact hq
  · match ax with
    | ⟨0, _⟩ => exact hq

/-- A host program's splat of a scalar constant reads that constant everywhere. -/
theorem host_splat_apply {s : Shape} (c : (⟨0, ![]⟩ : Shape).Idx → α) (h : (⟨0, ![]⟩ : Shape).BroadcastsInDim s ![])
    (i : s.Idx) : broadcastInDim s ![] h c i = c ix0 :=
  broadcastInDim_apply _ h c i ix0 fun ax => ax.elim0

/-! ## The layer as a vector program and as a host program spell it -/

section Spellings

variable {φ₁ φ₂ : FTy} {d : DotDims ⟨2, ![a, K]⟩ ⟨2, ![K, N]⟩ ⟨2, ![a, N]⟩}
  (x : FVec Ideal ⟨2, ![a, K]⟩ φ₁) (w : FVec Ideal ⟨2, ![K, N]⟩ φ₂) (b : FVec Ideal ⟨1, ![N]⟩ .f32)

/-- A vector program's product into the zero accumulator plus the laid-out bias is `affine`, entry by entry. -/
theorem vector_affine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    addf (matmul d prec x w (constant ⟨2, ![a, N]⟩ .f32 0x00000000#32))
        (broadcastTo ⟨2, ![a, N]⟩ (shapeCast ⟨2, ![1, N]⟩ b hc) hb) (ix2 r q)
      = affine x w b (ix2 r q) := by
  show FloatOps.matmul d prec x w (constant ⟨2, ![a, N]⟩ .f32 0x00000000#32) (ix2 r q)
      + broadcastTo ⟨2, ![a, N]⟩ (shapeCast ⟨2, ![1, N]⟩ b hc) hb (ix2 r q) = _
  rw [matmul_zero_apply hd, row_over_rows_apply]
  rfl

/-- Followed by the maximum against a splat of the zero word it is `reluAffine`. -/
theorem vector_reluAffine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    maximumf (addf (matmul d prec x w (constant ⟨2, ![a, N]⟩ .f32 0x00000000#32))
        (broadcastTo ⟨2, ![a, N]⟩ (shapeCast ⟨2, ![1, N]⟩ b hc) hb))
        (broadcast ⟨2, ![a, N]⟩ (Scalar.ofBits (F := Ideal) .f32 0x00000000#32)) (ix2 r q)
      = reluAffine x w b (ix2 r q) := by
  show max (addf (matmul d prec x w (constant ⟨2, ![a, N]⟩ .f32 0x00000000#32))
        (broadcastTo ⟨2, ![a, N]⟩ (shapeCast ⟨2, ![1, N]⟩ b hc) hb) (ix2 r q)) (Ideal.ofBits .f32 0x00000000#32) = _
  rw [vector_affine_apply x w b hd prec hc hb r q]
  rfl

/-- A host program's `dot_general` plus the laid-out bias is `affine`, entry by entry. -/
theorem host_affine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    addf (Host.dotGeneral d prec x w)
        (broadcastInDim ⟨2, ![a, N]⟩ ![0, 1] h2 (broadcastInDim ⟨2, ![1, N]⟩ ![1] h1 b)) (ix2 r q)
      = affine x w b (ix2 r q) := by
  show FloatOps.dotGeneral d prec .single x w (ix2 r q)
      + broadcastInDim ⟨2, ![a, N]⟩ ![0, 1] h2 (broadcastInDim ⟨2, ![1, N]⟩ ![1] h1 b) (ix2 r q) = _
  rw [dotGeneral_apply hd, host_row_over_rows_apply]
  rfl

/-- Followed by the maximum against a host splat of the zero word it is `reluAffine`. -/
theorem host_reluAffine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1])
    (h0 : (⟨0, ![]⟩ : Shape).BroadcastsInDim ⟨2, ![a, N]⟩ ![]) (r : Fin a) (q : Fin N) :
    maximumf (addf (Host.dotGeneral d prec x w)
        (broadcastInDim ⟨2, ![a, N]⟩ ![0, 1] h2 (broadcastInDim ⟨2, ![1, N]⟩ ![1] h1 b)))
        (broadcastInDim ⟨2, ![a, N]⟩ ![] h0 (constant (F := Ideal) ⟨0, ![]⟩ .f32 0x00000000#32)) (ix2 r q)
      = reluAffine x w b (ix2 r q) := by
  show max (addf (Host.dotGeneral d prec x w)
        (broadcastInDim ⟨2, ![a, N]⟩ ![0, 1] h2 (broadcastInDim ⟨2, ![1, N]⟩ ![1] h1 b)) (ix2 r q))
      (broadcastInDim ⟨2, ![a, N]⟩ ![] h0 (constant (F := Ideal) ⟨0, ![]⟩ .f32 0x00000000#32) (ix2 r q)) = _
  rw [host_affine_apply x w b hd prec h1 h2 r q, host_splat_apply]
  rfl

end Spellings

end Cert.BiasLayer

end
-- ==== Proof.LibRowBiasLayer.lean ====
/-
  A dense layer whose bias reaches the program already laid out as a row, and the layer that clamps its INPUT.

  `rowOf brow` is the one row of a `[1, N]` matrix, as a vector; a vector `[N]` reshaped to `[1, N]` has that vector
  as its row (`rowOf_shapeCast`). `relu x` clamps every entry of an array at zero from below; a host program's
  maximum against a splat of the zero word is `relu` (`host_relu_eq`).

  A vector program that is handed its three operands as loaded blocks — the left matrix `[a, K]`, the right matrix
  `[K, N]` and the bias as a row `[1, N]` — casts each to its own shape, may round the two matrices to another
  float format (the identity at the ideal values), multiplies into a zero accumulator and adds the row laid over the
  `a` rows. Read at `(r, q)` at the ideal values that is `affine x w (rowOf brow)`; with the maximum against zero
  after it, `reluAffine x w (rowOf brow)` (`vector_row_reluAffine_apply`); with the maximum against zero taken of
  the LEFT matrix before the product, `affine (relu x) w (rowOf brow)` (`vector_row_affine_of_relu_apply`). The host
  spelling of the last, a `dot_general` of the clamped matrix plus the bias laid out by two `broadcast_in_dim`s, is
  `affine (relu x) w b` (`host_affine_of_relu_apply`).

  All are generic in the extents.
-/
import Idealize.ShloMosaic.Lib.Pipeline.Value
import Idealize.ShloMosaic.Lib.ValueIdx
import Idealize.ShloMosaic.Lib.ValueLayout
import Idealize.ShloMosaic.PureOps.Ideal.Laws
import proofs.«162848_j20289425506743_1_alg».proof.Proof.LibBiasLayer

noncomputable section

namespace Cert.RowBiasLayer

open Idealize.ShloMosaic Idealize.ShloMosaic.ValueIdx Cert.DenseLayer Cert.BiasLayer

variable {a K N : ℕ}

/-! ## A row as a vector, and the clamp -/

/-- The one row of a `[1, N]` matrix, as a vector of `N` entries. -/
def rowOf (brow : Mat 1 N) : Row N := fun j => brow (ix2 (0 : Fin 1) (j 0))

theorem rowOf_apply (brow : Mat 1 N) (q : Fin N) : rowOf brow (ix1 q) = brow (ix2 (0 : Fin 1) q) := rfl

/-- A vector reshaped to a row has that vector as its row. -/
theorem rowOf_shapeCast (b : Row N) (h : (⟨1, ![N]⟩ : Shape).ShapeCasts ⟨2, ![1, N]⟩) :
    rowOf (shapeCast ⟨2, ![1, N]⟩ b h) = b :=
  funext fun j => by
    obtain ⟨q, rfl⟩ : ∃ q : Fin N, j = ix1 q := ⟨j 0, eq_ix1 j⟩
    exact shapeCast_n_1n_apply b h 0 q

/-- Every entry clamped at zero from below (the zero written as the word a program writes). -/
def relu {s : Shape} (x : s.Idx → EReal) : s.Idx → EReal := fun i => max (x i) (Ideal.ofBits .f32 0x00000000#32)

theorem relu_apply {s : Shape} (x : s.Idx → EReal) (i : s.Idx) : relu x i = max (x i) (Ideal.ofBits .f32 0x00000000#32) := rfl

/-- A host program's maximum against a splat of the zero word is the clamp. -/
theorem host_relu_eq {s : Shape} (x : FVec Ideal s .f32) (h0 : (⟨0, ![]⟩ : Shape).BroadcastsInDim s ![]) :
    maximumf x (broadcastInDim s ![] h0 (constant (F := Ideal) ⟨0, ![]⟩ .f32 0x00000000#32)) = relu x :=
  funext fun i => by
    show max (x i) (broadcastInDim s ![] h0 (constant (F := Ideal) ⟨0, ![]⟩ .f32 0x00000000#32) i) = _
    rw [host_splat_apply]
    rfl

/-! ## The layer over loaded blocks, as a vector program spells it -/

section Vector

variable {d : DotDims ⟨2, ![a, K]⟩ ⟨2, ![K, N]⟩ ⟨2, ![a, N]⟩}
  (x : FVec Ideal ⟨2, ![a, K]⟩ .f32) (w : FVec Ideal ⟨2, ![K, N]⟩ .f32) (brow : FVec Ideal ⟨2, ![1, N]⟩ .f32)

/-- The product of the two matrices, each cast to its own shape and rounded to another format, into a zero
    accumulator, plus the bias row cast to its own shape and laid over the rows: `affine`, entry by entry. -/
theorem vector_row_affine_apply (hd : PlainDot d) (prec : Option ContractPrecision)
    (hx : (⟨2, ![a, K]⟩ : Shape).ShapeCasts ⟨2, ![a, K]⟩) (hw : (⟨2, ![K, N]⟩ : Shape).ShapeCasts ⟨2, ![K, N]⟩)
    (hr : (⟨2, ![1, N]⟩ : Shape).ShapeCasts ⟨2, ![1, N]⟩) (hb : (⟨2, ![1, N]⟩ : Shape).Broadcasts ⟨2, ![a, N]⟩)
    (ψ₁ ψ₂ : FTy) (h₁ : ψ₁.bits < FTy.f32.bits) (h₂ : ψ₂.bits < FTy.f32.bits) (r : Fin a) (q : Fin N) :
    addf (matmul d prec (truncf ψ₁ (shapeCast ⟨2, ![a, K]⟩ x hx) h₁) (truncf ψ₂ (shapeCast ⟨2, ![K, N]⟩ w hw) h₂)
          (constant ⟨2, ![a, N]⟩ .f32 0x00000000#32))
        (broadcastTo ⟨2, ![a, N]⟩ (shapeCast ⟨2, ![1, N]⟩ brow hr) hb) (ix2 r q)
      = affine x w (rowOf brow) (ix2 r q) := by
  rw [shapeCast_self x hx, shapeCast_self w hw, shapeCast_self brow hr]
  show FloatOps.matmul d prec (truncf ψ₁ x h₁) (truncf ψ₂ w h₂) (constant ⟨2, ![a, N]⟩ .f32 0x00000000#32) (ix2 r q)
      + broadcastTo ⟨2, ![a, N]⟩ brow hb (ix2 r q) = _
  rw [matmul_zero_apply hd, broadcastTo_1b_ab_apply]
  rfl

/-- Followed by the maximum against a splat of the zero word it is `reluAffine`. -/
theorem vector_row_reluAffine_apply (hd : PlainDot d) (prec : Option ContractPrecision)
    (hx : (⟨2, ![a, K]⟩ : Shape).ShapeCasts ⟨2, ![a, K]⟩) (hw : (⟨2, ![K, N]⟩ : Shape).ShapeCasts ⟨2, ![K, N]⟩)
    (hr : (⟨2, ![1, N]⟩ : Shape).ShapeCasts ⟨2, ![1, N]⟩) (hb : (⟨2, ![1, N]⟩ : Shape).Broadcasts ⟨2, ![a, N]⟩)
    (ψ₁ ψ₂ : FTy) (h₁ : ψ₁.bits < FTy.f32.bits) (h₂ : ψ₂.bits < FTy.f32.bits) (r : Fin a) (q : Fin N) :
    maximumf (addf (matmul d prec (truncf ψ₁ (shapeCast ⟨2, ![a, K]⟩ x hx) h₁) (truncf ψ₂ (shapeCast ⟨2, ![K, N]⟩ w hw) h₂)
          (constant ⟨2, ![a, N]⟩ .f32 0x00000000#32))
        (broadcastTo ⟨2, ![a, N]⟩ (shapeCast ⟨2, ![1, N]⟩ brow hr) hb))
        (broadcast ⟨2, ![a, N]⟩ (Scalar.ofBits (F := Ideal) .f32 0x00000000#32)) (ix2 r q)
      = reluAffine x w (rowOf brow) (ix2 r q) := by
  show max (addf (matmul d prec (truncf ψ₁ (shapeCast ⟨2, ![a, K]⟩ x hx) h₁) (truncf ψ₂ (shapeCast ⟨2, ![K, N]⟩ w hw) h₂)
          (constant ⟨2, ![a, N]⟩ .f32 0x00000000#32))
        (broadcastTo ⟨2, ![a, N]⟩ (shapeCast ⟨2, ![1, N]⟩ brow hr) hb) (ix2 r q)) (Ideal.ofBits .f32 0x00000000#32) = _
  rw [vector_row_affine_apply x w brow hd prec hx hw hr hb ψ₁ ψ₂ h₁ h₂ r q]
  rfl

/-- With the left matrix clamped at zero before it is rounded and multiplied, the layer is `affine` of the clamped
    matrix. -/
theorem vector_row_affine_of_relu_apply (hd : PlainDot d) (prec : Option ContractPrecision)
    (hx : (⟨2, ![a, K]⟩ : Shape).ShapeCasts ⟨2, ![a, K]⟩) (hw : (⟨2, ![K, N]⟩ : Shape).ShapeCasts ⟨2, ![K, N]⟩)
    (hr : (⟨2, ![1, N]⟩ : Shape).ShapeCasts ⟨2, ![1, N]⟩) (hb : (⟨2, ![1, N]⟩ : Shape).Broadcasts ⟨2, ![a, N]⟩)
    (ψ₁ ψ₂ : FTy) (h₁ : ψ₁.bits < FTy.f32.bits) (h₂ : ψ₂.bits < FTy.f32.bits) (r : Fin a) (q : Fin N) :
    addf (matmul d prec
          (truncf ψ₁ (maximumf (shapeCast ⟨2, ![a, K]⟩ x hx)
            (broadcast ⟨2, ![a, K]⟩ (Scalar.ofBits (F := Ideal) .f32 0x00000000#32))) h₁)
          (truncf ψ₂ (shapeCast ⟨2, ![K, N]⟩ w hw) h₂) (constant ⟨2, ![a, N]⟩ .f32 0x00000000#32))
        (broadcastTo ⟨2, ![a, N]⟩ (shapeCast ⟨2, ![1, N]⟩ brow hr) hb) (ix2 r q)
      = affine (relu x) w (rowOf brow) (ix2 r q) := by
  rw [shapeCast_self x hx, shapeCast_self w hw, shapeCast_self brow hr]
  show FloatOps.matmul d prec
        (truncf ψ₁ (maximumf x (broadcast ⟨2, ![a, K]⟩ (Scalar.ofBits (F := Ideal) .f32 0x00000000#32))) h₁)
        (truncf ψ₂ w h₂) (constant ⟨2, ![a, N]⟩ .f32 0x00000000#32) (ix2 r q)
      + broadcastTo ⟨2, ![a, N]⟩ brow hb (ix2 r q) = _
  rw [matmul_zero_apply hd, broadcastTo_1b_ab_apply]
  rfl

end Vector

/-! ## The clamped-input layer as a host program spells it -/

/-- A host program's `dot_general` of the matrix clamped against a splat of zero, plus the laid-out bias, is `affine`
    of the clamped matrix, entry by entry. -/
theorem host_affine_of_relu_apply {d : DotDims ⟨2, ![a, K]⟩ ⟨2, ![K, N]⟩ ⟨2, ![a, N]⟩}
    (x : FVec Ideal ⟨2, ![a, K]⟩ .f32) (w : FVec Ideal ⟨2, ![K, N]⟩ .f32) (b : FVec Ideal ⟨1, ![N]⟩ .f32)
    (hd : PlainDot d) (prec : Option ContractPrecision)
    (h0 : (⟨0, ![]⟩ : Shape).BroadcastsInDim ⟨2, ![a, K]⟩ ![])
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    addf (Host.dotGeneral d prec
          (maximumf x (broadcastInDim ⟨2, ![a, K]⟩ ![] h0 (constant (F := Ideal) ⟨0, ![]⟩ .f32 0x00000000#32))) w)
        (broadcastInDim ⟨2, ![a, N]⟩ ![0, 1] h2 (broadcastInDim ⟨2, ![1, N]⟩ ![1] h1 b)) (ix2 r q)
      = affine (relu x) w b (ix2 r q) := by
  rw [host_relu_eq x h0]
  exact host_affine_apply (relu x) w b hd prec h1 h2 r q

end Cert.RowBiasLayer

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«162848_j20289425506743_1_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.Region0.lean ====
/-
  Region 0 (the first hidden layer's product, bias and clamp), read as a value at the ideal instance: whatever the
  arrays hold when the region is entered, its output array ends at `reluAffine` of the feature array, the weights and
  the bias row. The grid has ten points; point `t` reads rows `5000 t … 5000 t + 4999` of the features and the whole
  weights and bias, and writes the same rows of the output. An entry of the layer depends on the features only through
  its own row, so each written block is the layer's block, and the ten blocks tile the output.
-/
import proofs.«162848_j20289425506743_1_alg».proof.Proof.Gen.KernelIdeal.Frame
import proofs.«162848_j20289425506743_1_alg».proof.Proof.LibRowBiasLayer
import proofs.«162848_j20289425506743_1_alg».proof.Proof.LibPlainDot
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.DenseLayer Cert.BiasLayer Cert.RowBiasLayer

variable (V : (c : Dev nD) → (b : Ref sig .tc) → Buf (Elt Ideal) ((c : Thread nD τ).loc b))

/-- Region 0's left operand: the mean-aggregated input features, as the region finds them. -/
abbrev xin (c : Dev nD) : Mat 50000 128 := V c main_v25
/-- Its right operand: the transposed weights. -/
abbrev wmat (c : Dev nD) : Mat 128 128 := V c main_v26
/-- Its bias, laid out as a row. -/
abbrev brow (c : Dev nD) : Mat 1 128 := V c main_v27

/-- What region 0 computes, as one function of the three arrays it reads: the product plus the bias row, clamped at
    zero from below, entry by entry. -/
def layer (c : Dev nD) : Mat 50000 128 := reluAffine (xin V c) (wmat V c) (rowOf (brow V c))

theorem hz : (![0, 0] : Fin 2 → Nat) = fun _ => 0 := funext fun a => by fin_cases a <;> rfl

/-- The body's product `[5000, 128] × [128, 128]` is a plain one. -/
theorem dotBody : PlainDot dot_S5000x128_S128x128_S5000x128_1_0_0_1_n_n := plainDot_of_axes _ rfl rfl rfl rfl rfl rfl

/-- The body's one stored value at row `r`, column `q` of the block: the row product of the loaded feature block with
    the loaded weights, plus the loaded bias row at `q`, clamped at zero. -/
theorem pay_apply (x0 : Vec Ideal S5000x128 .f32) (x1 : Vec Ideal S128x128 .f32) (x2 : Vec Ideal S1x128 .f32) (r : Fin 5000) (q : Fin 128) :
    k0_pay1 (F := Ideal) x0 x1 x2 (ix2 r q) = reluAffine x0 x1 (rowOf x2) (ix2 r q) := by
  unfold k0_pay1
  exact vector_row_reluAffine_apply x0 x1 x2 dotBody none _ _ _ _ .bf16 .bf16 _ _ r q

/-- The printed index maps over the grid: the feature window and the output window are at block `(t, 0)`, the weights
    and the bias at block `(0, 0)` at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `5000 t + p` of the array. -/
def rowAt (t : Fin cfg0.N) (p : Fin 5000) : Fin 50000 :=
  ⟨t.val * 5000 + p.val, by have ht : t.val < 10 := lt_of_lt_of_eq t.isLt N_0; have := p.isLt; omega⟩

/-- The feature window's block at point `t` holds rows `5000 t …` of the feature array. -/
theorem blk0_read (c : Dev nD) (t : Fin cfg0.N) (p : Fin 5000) (k : Fin 128) :
    iblk0 V c 0 t (ix2 p k) = xin V c (ix2 (rowAt t p) k) := by
  show V c main_v25 (((cfg0.win 0).blk t).view.emb (ix2 p k)) = V c main_v25 (ix2 (rowAt t p) k)
  refine congrArg (V c main_v25) ?_
  obtain ⟨e0, e1, -, -, -, -, -, -⟩ := idx_facts t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

/-- The weights' window holds the whole weights at every point. -/
theorem blk1_eq (c : Dev nD) (t : Fin cfg0.N) : iblk0 V c 1 t = wmat V c := by
  funext y
  show V c main_v26 (((cfg0.win 1).blk t).view.emb y) = V c main_v26 y
  refine congrArg (V c main_v26) ?_
  obtain ⟨-, -, e2, e3, -, -, -, -⟩ := idx_facts t
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias window holds the whole bias row at every point. -/
theorem blk2_eq (c : Dev nD) (t : Fin cfg0.N) : iblk0 V c 2 t = brow V c := by
  funext y
  show V c main_v27 (((cfg0.win 2).blk t).view.emb y) = V c main_v27 y
  refine congrArg (V c main_v27) ?_
  obtain ⟨-, -, -, -, e4, e5, -, -⟩ := idx_facts t
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- Entry `(p, q)` of the output block at point `t` sits at `(5000 t + p, q)` of the output array. -/
theorem out_emb (t : Fin cfg0.N) (p : Fin 5000) (q : Fin 128) :
    ((cfg0.win 3).blk t).view.emb (ix2 p q) = ix2 (rowAt t p) q := by
  obtain ⟨-, -, -, -, -, -, e6, e7⟩ := idx_facts t
  funext a; apply Fin.ext
  match a with
  | ⟨0, _⟩ => show win0_3.index t (0 : Fin 2) * 5000 + 1 * p.val = t.val * 5000 + p.val; omega
  | ⟨1, _⟩ => show win0_3.index t (1 : Fin 2) * 128 + 1 * q.val = q.val; omega

/-- What the body stores at point `t` is block `t` of the layer: an entry of the layer depends on the features only
    through its own row, and the block's rows are the array's rows `5000 t …`. -/
theorem body_at (c : Dev nD) (t : Fin cfg0.N) (y : S5000x128.Idx) :
    k0_pay1 (F := Ideal) (iblk0 V c 0 t) (iblk0 V c 1 t) (iblk0 V c 2 t) y = layer V c (((cfg0.win 3).blk t).view.emb y) := by
  obtain ⟨p, q, rfl⟩ : ∃ (p : Fin 5000) (q : Fin 128), y = ix2 p q := ⟨y 0, y 1, eq_ix2 y⟩
  refine (pay_apply (iblk0 V c 0 t) (iblk0 V c 1 t) (iblk0 V c 2 t) p q).trans ?_
  rw [blk1_eq V c t, blk2_eq V c t, out_emb t p q]
  unfold layer
  exact reluAffine_congr (iblk0 V c 0 t) (xin V c) (wmat V c) (rowOf (brow V c)) p (rowAt t p) (fun k => blk0_read V c t p k) q

/-- WHAT POINT `t` WRITES BACK is block `t` of the layer of the arrays as the region finds them. -/
theorem flushed_eq (c : Dev nD) (t : Fin cfg0.N) :
    (dat0 V c).flushed 3 t = ((cfg0.win 3).blk t).view.read (Elt Ideal) (layer V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  funext j
  exact body_at V c t j

/-- An index of the output array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v28).slice (win0_3.rect t)).set ↔ _
  rw [View.set_slice_whole, Rect.mem_set_unit]
  exact Iff.rfl

/-- The ten blocks of 5000 rows tile the output array: row `r` is in the block of point `r / 5000`. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : (i 0).val / 5000 < cfg0.N := by show _ < grid0.N; rw [N_0]; omega
  refine ⟨⟨(i 0).val / 5000, hN⟩, flush0_3 _, ?_⟩
  rw [mem_blk]
  obtain ⟨-, -, -, -, -, -, e6, e7⟩ := idx_facts ⟨(i 0).val / 5000, hN⟩
  have e6' : win0_3.index ⟨(i 0).val / 5000, hN⟩ (0 : Fin 2) = (i 0).val / 5000 := e6
  intro a
  match a with
  | ⟨0, _⟩ => show win0_3.index ⟨(i 0).val / 5000, hN⟩ (0 : Fin 2) * 5000 ≤ (i 0).val ∧ (i 0).val < win0_3.index ⟨(i 0).val / 5000, hN⟩ (0 : Fin 2) * 5000 + 5000; omega
  | ⟨1, _⟩ => show win0_3.index ⟨(i 0).val / 5000, hN⟩ (1 : Fin 2) * 128 ≤ (i 1).val ∧ (i 1).val < win0_3.index ⟨(i 0).val / 5000, hN⟩ (1 : Fin 2) * 128 + 128; omega

/-- THE OUTPUT ARRAY after region 0, whatever contents `V` it was entered from: the layer of the three arrays it
    reads. -/
theorem final (c : Dev nD) : (dat0 V c).arrAt 3 cfg0.N = layer V c :=
  (dat0 V c).arrAt_eq_of_cover 3 (layer V c) (fun t _ => flushed_eq V c t) (cover)

end Cert.KernelIdeal.Region0

end
-- ==== Proof.Region1.lean ====
/-
  Region 1 (the second hidden layer's product, bias and clamp), read as a value at the ideal instance: whatever the
  arrays hold when the region is entered, its output array ends at `reluAffine` of the feature array, the weights and
  the bias row. The grid has ten points; point `t` reads rows `5000 t … 5000 t + 4999` of the features and the whole
  weights and bias, and writes the same rows of the output. An entry of the layer depends on the features only through
  its own row, so each written block is the layer's block, and the ten blocks tile the output.
-/
import proofs.«162848_j20289425506743_1_alg».proof.Proof.Gen.KernelIdeal.Frame
import proofs.«162848_j20289425506743_1_alg».proof.Proof.LibRowBiasLayer
import proofs.«162848_j20289425506743_1_alg».proof.Proof.LibPlainDot
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.DenseLayer Cert.BiasLayer Cert.RowBiasLayer

variable (V : (c : Dev nD) → (b : Ref sig .tc) → Buf (Elt Ideal) ((c : Thread nD τ).loc b))

/-- Region 1's left operand: the mean-aggregated first hidden layer, as the region finds them. -/
abbrev xin (c : Dev nD) : Mat 50000 128 := V c main_v47
/-- Its right operand: the transposed weights. -/
abbrev wmat (c : Dev nD) : Mat 128 128 := V c main_v48
/-- Its bias, laid out as a row. -/
abbrev brow (c : Dev nD) : Mat 1 128 := V c main_v49

/-- What region 1 computes, as one function of the three arrays it reads: the product plus the bias row, clamped at
    zero from below, entry by entry. -/
def layer (c : Dev nD) : Mat 50000 128 := reluAffine (xin V c) (wmat V c) (rowOf (brow V c))

theorem hz : (![0, 0] : Fin 2 → Nat) = fun _ => 0 := funext fun a => by fin_cases a <;> rfl

/-- The body's product `[5000, 128] × [128, 128]` is a plain one. -/
theorem dotBody : PlainDot dot_S5000x128_S128x128_S5000x128_1_0_0_1_n_n := plainDot_of_axes _ rfl rfl rfl rfl rfl rfl

/-- The body's one stored value at row `r`, column `q` of the block: the row product of the loaded feature block with
    the loaded weights, plus the loaded bias row at `q`, clamped at zero. -/
theorem pay_apply (x0 : Vec Ideal S5000x128 .f32) (x1 : Vec Ideal S128x128 .f32) (x2 : Vec Ideal S1x128 .f32) (r : Fin 5000) (q : Fin 128) :
    k1_pay1 (F := Ideal) x0 x1 x2 (ix2 r q) = reluAffine x0 x1 (rowOf x2) (ix2 r q) := by
  unfold k1_pay1
  exact vector_row_reluAffine_apply x0 x1 x2 dotBody none _ _ _ _ .bf16 .bf16 _ _ r q

/-- The printed index maps over the grid: the feature window and the output window are at block `(t, 0)`, the weights
    and the bias at block `(0, 0)` at every point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of point `t`'s block is row `5000 t + p` of the array. -/
def rowAt (t : Fin cfg1.N) (p : Fin 5000) : Fin 50000 :=
  ⟨t.val * 5000 + p.val, by have ht : t.val < 10 := lt_of_lt_of_eq t.isLt N_1; have := p.isLt; omega⟩

/-- The feature window's block at point `t` holds rows `5000 t …` of the feature array. -/
theorem blk0_read (c : Dev nD) (t : Fin cfg1.N) (p : Fin 5000) (k : Fin 128) :
    iblk1 V c 0 t (ix2 p k) = xin V c (ix2 (rowAt t p) k) := by
  show V c main_v47 (((cfg1.win 0).blk t).view.emb (ix2 p k)) = V c main_v47 (ix2 (rowAt t p) k)
  refine congrArg (V c main_v47) ?_
  obtain ⟨e0, e1, -, -, -, -, -, -⟩ := idx_facts t
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- The weights' window holds the whole weights at every point. -/
theorem blk1_eq (c : Dev nD) (t : Fin cfg1.N) : iblk1 V c 1 t = wmat V c := by
  funext y
  show V c main_v48 (((cfg1.win 1).blk t).view.emb y) = V c main_v48 y
  refine congrArg (V c main_v48) ?_
  obtain ⟨-, -, e2, e3, -, -, -, -⟩ := idx_facts t
  funext a; apply Fin.ext
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- The bias window holds the whole bias row at every point. -/
theorem blk2_eq (c : Dev nD) (t : Fin cfg1.N) : iblk1 V c 2 t = brow V c := by
  funext y
  show V c main_v49 (((cfg1.win 2).blk t).view.emb y) = V c main_v49 y
  refine congrArg (V c main_v49) ?_
  obtain ⟨-, -, -, -, e4, e5, -, -⟩ := idx_facts t
  funext a; apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- Entry `(p, q)` of the output block at point `t` sits at `(5000 t + p, q)` of the output array. -/
theorem out_emb (t : Fin cfg1.N) (p : Fin 5000) (q : Fin 128) :
    ((cfg1.win 3).blk t).view.emb (ix2 p q) = ix2 (rowAt t p) q := by
  obtain ⟨-, -, -, -, -, -, e6, e7⟩ := idx_facts t
  funext a; apply Fin.ext
  match a with
  | ⟨0, _⟩ => show win1_3.index t (0 : Fin 2) * 5000 + 1 * p.val = t.val * 5000 + p.val; omega
  | ⟨1, _⟩ => show win1_3.index t (1 : Fin 2) * 128 + 1 * q.val = q.val; omega

/-- What the body stores at point `t` is block `t` of the layer: an entry of the layer depends on the features only
    through its own row, and the block's rows are the array's rows `5000 t …`. -/
theorem body_at (c : Dev nD) (t : Fin cfg1.N) (y : S5000x128.Idx) :
    k1_pay1 (F := Ideal) (iblk1 V c 0 t) (iblk1 V c 1 t) (iblk1 V c 2 t) y = layer V c (((cfg1.win 3).blk t).view.emb y) := by
  obtain ⟨p, q, rfl⟩ : ∃ (p : Fin 5000) (q : Fin 128), y = ix2 p q := ⟨y 0, y 1, eq_ix2 y⟩
  refine (pay_apply (iblk1 V c 0 t) (iblk1 V c 1 t) (iblk1 V c 2 t) p q).trans ?_
  rw [blk1_eq V c t, blk2_eq V c t, out_emb t p q]
  unfold layer
  exact reluAffine_congr (iblk1 V c 0 t) (xin V c) (wmat V c) (rowOf (brow V c)) p (rowAt t p) (fun k => blk0_read V c t p k) q

/-- WHAT POINT `t` WRITES BACK is block `t` of the layer of the arrays as the region finds them. -/
theorem flushed_eq (c : Dev nD) (t : Fin cfg1.N) :
    (dat1 V c).flushed 3 t = ((cfg1.win 3).blk t).view.read (Elt Ideal) (layer V c) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S1x128) hz]
  funext j
  exact body_at V c t j

/-- An index of the output array is in point `t`'s block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v50).slice (win1_3.rect t)).set ↔ _
  rw [View.set_slice_whole, Rect.mem_set_unit]
  exact Iff.rfl

/-- The ten blocks of 5000 rows tile the output array: row `r` is in the block of point `r / 5000`. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : (i 0).val / 5000 < cfg1.N := by show _ < grid1.N; rw [N_1]; omega
  refine ⟨⟨(i 0).val / 5000, hN⟩, flush1_3 _, ?_⟩
  rw [mem_blk]
  obtain ⟨-, -, -, -, -, -, e6, e7⟩ := idx_facts ⟨(i 0).val / 5000, hN⟩
  have e6' : win1_3.index ⟨(i 0).val / 5000, hN⟩ (0 : Fin 2) = (i 0).val / 5000 := e6
  intro a
  match a with
  | ⟨0, _⟩ => show win1_3.index ⟨(i 0).val / 5000, hN⟩ (0 : Fin 2) * 5000 ≤ (i 0).val ∧ (i 0).val < win1_3.index ⟨(i 0).val / 5000, hN⟩ (0 : Fin 2) * 5000 + 5000; omega
  | ⟨1, _⟩ => show win1_3.index ⟨(i 0).val / 5000, hN⟩ (1 : Fin 2) * 128 ≤ (i 1).val ∧ (i 1).val < win1_3.index ⟨(i 0).val / 5000, hN⟩ (1 : Fin 2) * 128 + 128; omega

/-- THE OUTPUT ARRAY after region 1, whatever contents `V` it was entered from: the layer of the three arrays it
    reads. -/
theorem final (c : Dev nD) : (dat1 V c).arrAt 3 cfg1.N = layer V c :=
  (dat1 V c).arrAt_eq_of_cover 3 (layer V c) (fun t _ => flushed_eq V c t) (cover)

end Cert.KernelIdeal.Region1

end
-- ==== Proof.Region2.lean ====
/-
  Region 2 (the classifier: clamp, product and bias), read as a value at the ideal instance: whatever the arrays
  hold when the region is entered, its output array ends at `affine` of the pooled features clamped at zero, the
  classifier weights and the bias row. The grid has one point, every window's block is its whole array, and the one
  write-back is the whole output.
-/
import proofs.«162848_j20289425506743_1_alg».proof.Proof.Gen.KernelIdeal.Frame
import proofs.«162848_j20289425506743_1_alg».proof.Proof.LibRowBiasLayer
import proofs.«162848_j20289425506743_1_alg».proof.Proof.LibPlainDot
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.DenseLayer Cert.BiasLayer Cert.RowBiasLayer

variable (V : (c : Dev nD) → (b : Ref sig .tc) → Buf (Elt Ideal) ((c : Thread nD τ).loc b))

/-- Region 2's left operand: the pooled features of the 64 graphs, as the region finds them. -/
abbrev xin (c : Dev nD) : Mat 64 128 := V c main_v62
/-- Its right operand: the transposed classifier weights. -/
abbrev wmat (c : Dev nD) : Mat 128 10 := V c main_v63
/-- Its bias, laid out as a row. -/
abbrev brow (c : Dev nD) : Mat 1 10 := V c main_v64

/-- What region 2 computes, as one function of the three arrays it reads: the pooled features clamped at zero from
    below, times the weights, plus the bias row, entry by entry. -/
def layer (c : Dev nD) : Mat 64 10 := affine (relu (xin V c)) (wmat V c) (rowOf (brow V c))

theorem hz : (![0, 0] : Fin 2 → Nat) = fun _ => 0 := funext fun a => by fin_cases a <;> rfl

/-- The body's product `[64, 128] × [128, 10]` is a plain one. -/
theorem dotBody : PlainDot dot_S64x128_S128x10_S64x10_1_0_0_1_n_n := plainDot_of_axes _ rfl rfl rfl rfl rfl rfl

/-- The body's one stored value at row `r`, column `q`: the row product of the clamped features with the loaded
    weights, plus the loaded bias row at `q`. -/
theorem pay_apply (x0 : Vec Ideal S64x128 .f32) (x1 : Vec Ideal S128x10 .f32) (x2 : Vec Ideal S1x10 .f32) (r : Fin 64) (q : Fin 10) :
    k2_pay1 (F := Ideal) x0 x1 x2 (ix2 r q) = affine (relu x0) x1 (rowOf x2) (ix2 r q) := by
  unfold k2_pay1
  exact vector_row_affine_of_relu_apply x0 x1 x2 dotBody none _ _ _ _ .bf16 .bf16 _ _ r q

/-- The printed index maps at the grid's one point: every window is at block `(0, 0)`. -/
theorem idx_facts : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- The features' window holds the whole pooled array. -/
theorem blk0_eq (c : Dev nD) (t : Fin cfg2.N) : iblk2 V c 0 t = xin V c := by
  funext y
  show V c main_v62 (((cfg2.win 0).blk t).view.emb y) = V c main_v62 y
  refine congrArg (V c main_v62) ?_
  obtain ⟨e0, e1, -, -, -, -, -, -⟩ := idx_facts t
  funext a; apply Fin.ext
  match a with
  | ⟨0, _⟩ => show win2_0.index t (0 : Fin 2) * 64 + 1 * (y 0).val = (y 0).val; omega
  | ⟨1, _⟩ => show win2_0.index t (1 : Fin 2) * 128 + 1 * (y 1).val = (y 1).val; omega

/-- The weights' window holds the whole weights. -/
theorem blk1_eq (c : Dev nD) (t : Fin cfg2.N) : iblk2 V c 1 t = wmat V c := by
  funext y
  show V c main_v63 (((cfg2.win 1).blk t).view.emb y) = V c main_v63 y
  refine congrArg (V c main_v63) ?_
  obtain ⟨-, -, e2, e3, -, -, -, -⟩ := idx_facts t
  funext a; apply Fin.ext
  match a with
  | ⟨0, _⟩ => show win2_1.index t (0 : Fin 2) * 128 + 1 * (y 0).val = (y 0).val; omega
  | ⟨1, _⟩ => show win2_1.index t (1 : Fin 2) * 10 + 1 * (y 1).val = (y 1).val; omega

/-- The bias window holds the whole bias row. -/
theorem blk2_eq (c : Dev nD) (t : Fin cfg2.N) : iblk2 V c 2 t = brow V c := by
  funext y
  show V c main_v64 (((cfg2.win 2).blk t).view.emb y) = V c main_v64 y
  refine congrArg (V c main_v64) ?_
  obtain ⟨-, -, -, -, e4, e5, -, -⟩ := idx_facts t
  funext a; apply Fin.ext
  match a with
  | ⟨0, _⟩ => show win2_2.index t (0 : Fin 2) * 1 + 1 * (y 0).val = (y 0).val; omega
  | ⟨1, _⟩ => show win2_2.index t (1 : Fin 2) * 10 + 1 * (y 1).val = (y 1).val; omega

/-- The output block is the whole output array: an entry of the block sits at the same place in the array. -/
theorem out_emb (t : Fin cfg2.N) (y : S64x10.Idx) : ((cfg2.win 3).blk t).view.emb y = y := by
  obtain ⟨-, -, -, -, -, -, e6, e7⟩ := idx_facts t
  funext a; apply Fin.ext
  match a with
  | ⟨0, _⟩ => show win2_3.index t (0 : Fin 2) * 64 + 1 * (y 0).val = (y 0).val; omega
  | ⟨1, _⟩ => show win2_3.index t (1 : Fin 2) * 10 + 1 * (y 1).val = (y 1).val; omega

/-- What the body stores at the one point is the layer itself. -/
theorem body_at (c : Dev nD) (t : Fin cfg2.N) (y : S64x10.Idx) :
    k2_pay1 (F := Ideal) (iblk2 V c 0 t) (iblk2 V c 1 t) (iblk2 V c 2 t) y = layer V c (((cfg2.win 3).blk t).view.emb y) := by
  rw [blk0_eq V c t, blk1_eq V c t, blk2_eq V c t, out_emb t y]
  obtain ⟨p, q, rfl⟩ : ∃ (p : Fin 64) (q : Fin 10), y = ix2 p q := ⟨y 0, y 1, eq_ix2 y⟩
  exact pay_apply (xin V c) (wmat V c) (brow V c) p q

/-- WHAT THE ONE POINT WRITES BACK is the layer of the arrays as the region finds them, read through the block. -/
theorem flushed_eq (c : Dev nD) (t : Fin cfg2.N) :
    (dat2 V c).flushed 3 t = ((cfg2.win 3).blk t).view.read (Elt Ideal) (layer V c) := by
  show (cfg2.win 3).cut (grid2.coords t) ((dat2 V c).after 3 t) = _
  rw [after2_3]
  unfold out2_3
  rw [View.canon_unit_zero hz]
  simp only [View.ld_unit_zero (S := S64x128) hz, View.ld_unit_zero (S := S128x10) hz, View.ld_unit_zero (S := S1x10) hz]
  funext j
  exact body_at V c t j

/-- An index of the output array is in the point's block iff each coordinate is in the block's range on its axis. -/
theorem mem_blk (t : Fin cfg2.N) (i : S64x10.Idx) :
    i ∈ ((cfg2.win 3).blk t).view.set ↔ ∀ a : Fin 2, win2_3.index t a * S64x10.size a ≤ (i a).val ∧ (i a).val < win2_3.index t a * S64x10.size a + S64x10.size a := by
  show i ∈ ((View.whole main_v65).slice (win2_3.rect t)).set ↔ _
  rw [View.set_slice_whole, Rect.mem_set_unit]
  exact Iff.rfl

/-- The one block is the whole output array. -/
theorem cover (i : S64x10.Idx) :
    ∃ t : Fin cfg2.N, (cfg2.win 3).flush t = true ∧ i ∈ ((cfg2.win 3).blk t).view.set := by
  have hi0 : (i 0).val < 64 := (i 0).isLt
  have hi1 : (i 1).val < 10 := (i 1).isLt
  refine ⟨t2_0, flush2_3 _, ?_⟩
  rw [mem_blk]
  obtain ⟨-, -, -, -, -, -, e6, e7⟩ := idx_facts t2_0
  intro a
  match a with
  | ⟨0, _⟩ => show win2_3.index t2_0 (0 : Fin 2) * 64 ≤ (i 0).val ∧ (i 0).val < win2_3.index t2_0 (0 : Fin 2) * 64 + 64; omega
  | ⟨1, _⟩ => show win2_3.index t2_0 (1 : Fin 2) * 10 ≤ (i 1).val ∧ (i 1).val < win2_3.index t2_0 (1 : Fin 2) * 10 + 10; omega

/-- THE OUTPUT ARRAY after region 2, whatever contents `V` it was entered from: the layer of the three arrays it
    reads. -/
theorem final (c : Dev nD) : (dat2 V c).arrAt 3 cfg2.N = layer V c :=
  (dat2 V c).arrAt_eq_of_cover 3 (layer V c) (fun t _ => flushed_eq V c t) (cover)

end Cert.KernelIdeal.Region2

end
-- ==== Proof.RefLayers.lean ====
/-
  The reference's three dense layers, each as one function of the stage before it.

  The reference computes a layer by four host operations: the product of the aggregated features with the transposed
  weights (a `dot_general` summing the second axis of the left operand against the first of the right), the bias laid
  over the rows by two `broadcast_in_dim`s, their sum, and — for the two hidden layers — the maximum against a splat of
  zero. Read entry by entry at the ideal values the hidden layers are `reluAffine` of the stage before
  (`layer1_eq`, `layer2_eq`). The classifier clamps the pooled features first and has no maximum after its sum: it is
  `affine` of the clamped stage (`layer3_eq`).
-/
import proofs.«162848_j20289425506743_1_alg».proof.Proof.Gen.ReferenceIdeal.Read
import proofs.«162848_j20289425506743_1_alg».proof.Proof.LibRowBiasLayer
import proofs.«162848_j20289425506743_1_alg».proof.Proof.LibPlainDot

noncomputable section

namespace Cert.ReferenceIdeal.Layers

open Cert.ReferenceIdeal Cert.ReferenceIdeal.Gen Cert.ReferenceIdeal.Read
open Idealize.ShloMosaic Idealize.ShloMosaic.ValueIdx
open Cert.DenseLayer Cert.BiasLayer Cert.RowBiasLayer

/-- The hidden layers' product `[50000, 128] × [128, 128]` is a plain one. -/
theorem dotHidden : PlainDot dot_S50000x128_S128x128_S50000x128_1_0_0_1_n_n :=
  plainDot_of_axes _ rfl rfl rfl rfl rfl rfl

/-- The classifier's product `[64, 128] × [128, 10]` is a plain one. -/
theorem dotClass : PlainDot dot_S64x128_S128x10_S64x10_1_0_0_1_n_n :=
  plainDot_of_axes _ rfl rfl rfl rfl rfl rfl

variable (x0 : (⟨S50000x128, .f32⟩ : BufTy).Contents (Elt Ideal)) (x1 : (⟨S2x600000, .i32⟩ : BufTy).Contents (Elt Ideal))
  (x2 : (⟨S50000, .i32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S10x128, .f32⟩ : BufTy).Contents (Elt Ideal))
  (x8 : (⟨S10, .f32⟩ : BufTy).Contents (Elt Ideal))

/-- The first hidden layer: the mean-aggregated input times the transposed first weights, plus the first bias,
    clamped at zero. -/
theorem layer1_eq :
    val_main_v31 (F := Ideal) x0 x1 x3 x4
      = reluAffine (val_main_v25 (F := Ideal) x0 x1) (val_main_v26 (F := Ideal) x3) x4 := by
  funext i
  obtain ⟨r, q, rfl⟩ : ∃ (r : Fin 50000) (q : Fin 128), i = ix2 r q := ⟨i 0, i 1, eq_ix2 i⟩
  unfold val_main_v31 val_main_v30 val_main_v27 val_main_v29 val_main_v28 val_main_call0_v0 val_main_call0_cst
  generalize val_main_v25 (F := Ideal) x0 x1 = y0
  generalize val_main_v26 (F := Ideal) x3 = y1
  exact host_reluAffine_apply y0 y1 x4 dotHidden none _ _ _ r q

/-- The second hidden layer: the same of the mean-aggregated first layer, with the second weights and bias. -/
theorem layer2_eq :
    val_main_v59 (F := Ideal) x0 x1 x3 x4 x5 x6
      = reluAffine (val_main_v53 (F := Ideal) x0 x1 x3 x4) (val_main_v54 (F := Ideal) x5) x6 := by
  funext i
  obtain ⟨r, q, rfl⟩ : ∃ (r : Fin 50000) (q : Fin 128), i = ix2 r q := ⟨i 0, i 1, eq_ix2 i⟩
  unfold val_main_v59 val_main_v58 val_main_v55 val_main_v57 val_main_v56 val_main_call1_v0 val_main_call1_cst
  generalize val_main_v53 (F := Ideal) x0 x1 x3 x4 = y0
  generalize val_main_v54 (F := Ideal) x5 = y1
  exact host_reluAffine_apply y0 y1 x6 dotHidden none _ _ _ r q

/-- The classifier: the pooled features clamped at zero, times the transposed classifier weights, plus its bias. -/
theorem layer3_eq :
    val_main_v77 (F := Ideal) x0 x1 x2 x3 x4 x5 x6 x7 x8
      = affine (relu (val_main_v71 (F := Ideal) x0 x1 x2 x3 x4 x5 x6)) (val_main_v73 (F := Ideal) x7) x8 := by
  funext i
  obtain ⟨r, q, rfl⟩ : ∃ (r : Fin 64) (q : Fin 10), i = ix2 r q := ⟨i 0, i 1, eq_ix2 i⟩
  unfold val_main_v77 val_main_v74 val_main_v76 val_main_v75 val_main_v72 val_main_call2_v0 val_main_call2_cst
  generalize val_main_v71 (F := Ideal) x0 x1 x2 x3 x4 x5 x6 = y0
  generalize val_main_v73 (F := Ideal) x7 = y1
  exact host_affine_of_relu_apply y0 y1 x8 dotClass none _ _ _ r q

end Cert.ReferenceIdeal.Layers

end
-- ==== Proof.Boundaries.lean ====
/-
  The kernel program's buffers at each boundary of its run, each as the reference's own stage of the arguments.

  The program is three host stretches, each followed by a region. A host stretch's results are the stretch's
  operations applied to the contents it starts from; a region leaves in its output array the dense layer of the three
  arrays it reads (the three region modules) and every other buffer as it found it. Walking the boundaries in order:
  after the first stretch the aggregated features, the transposed weights, the bias row and the two edge-index lists
  are the reference's stages of the same names' arguments (the operations are the same text); region 0's output is
  then the reference's first hidden layer; the second stretch applies the same aggregation to it; region 1's output is
  the second hidden layer; the third stretch pools it over the graphs; and region 2's output, the program's result, is
  the reference's result stage.  The host operations are never opened: both programs apply the same ones, so each
  stretch's result is the reference's stage by unfolding the names alone.
-/
import proofs.«162848_j20289425506743_1_alg».proof.Proof.Gen.KernelIdeal.Frame
import proofs.«162848_j20289425506743_1_alg».proof.Proof.Gen.ReferenceIdeal.Read
import proofs.«162848_j20289425506743_1_alg».proof.Proof.Region0
import proofs.«162848_j20289425506743_1_alg».proof.Proof.Region1
import proofs.«162848_j20289425506743_1_alg».proof.Proof.Region2
import proofs.«162848_j20289425506743_1_alg».proof.Proof.RefLayers
import Idealize.ShloMosaic.Lib.StableHlo.Run

set_option maxRecDepth 16384
set_option maxHeartbeats 4000000

noncomputable section

namespace Cert.KernelIdeal.Boundaries

open Cert.KernelIdeal Cert.KernelIdeal.Gen
open Idealize.ShloMosaic Idealize.ShloMosaic.TcCoe Idealize.SL.Sem Idealize.ShloMosaic.StableHlo
open Cert.DenseLayer Cert.BiasLayer Cert.RowBiasLayer
open Cert.ReferenceIdeal.Read

variable (m : (ℓ : Loc nD τ sig) → Buf (Elt Ideal) ℓ) (ρ : Dev nD → PrngReg)

/-! ## The argument arrays, and an argument's buffer at the later boundaries -/

abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)

-- No host operation and no region writes an argument: its buffer holds the launch contents at every boundary.
theorem W1_arg2 (c : Dev nD) : W1 m ρ c (Proc.devRef .tc main_arg2) = a2 m c := by
  show StableHlo.after hostOps0 (W0 m ρ c) (Proc.devRef .tc main_arg2) = _
  after_results_simp <;> rfl
theorem W2_arg2 (c : Dev nD) : W2 m ρ c (Proc.devRef .tc main_arg2) = a2 m c :=
  (W2_of_ne m ρ c main_arg2 (by decide)).trans (W1_arg2 m ρ c)
theorem W1_arg5 (c : Dev nD) : W1 m ρ c (Proc.devRef .tc main_arg5) = a5 m c := by
  show StableHlo.after hostOps0 (W0 m ρ c) (Proc.devRef .tc main_arg5) = _
  after_results_simp <;> rfl
theorem W2_arg5 (c : Dev nD) : W2 m ρ c (Proc.devRef .tc main_arg5) = a5 m c :=
  (W2_of_ne m ρ c main_arg5 (by decide)).trans (W1_arg5 m ρ c)
theorem W1_arg6 (c : Dev nD) : W1 m ρ c (Proc.devRef .tc main_arg6) = a6 m c := by
  show StableHlo.after hostOps0 (W0 m ρ c) (Proc.devRef .tc main_arg6) = _
  after_results_simp <;> rfl
theorem W2_arg6 (c : Dev nD) : W2 m ρ c (Proc.devRef .tc main_arg6) = a6 m c :=
  (W2_of_ne m ρ c main_arg6 (by decide)).trans (W1_arg6 m ρ c)
theorem W1_arg7 (c : Dev nD) : W1 m ρ c (Proc.devRef .tc main_arg7) = a7 m c := by
  show StableHlo.after hostOps0 (W0 m ρ c) (Proc.devRef .tc main_arg7) = _
  after_results_simp <;> rfl
theorem W2_arg7 (c : Dev nD) : W2 m ρ c (Proc.devRef .tc main_arg7) = a7 m c :=
  (W2_of_ne m ρ c main_arg7 (by decide)).trans (W1_arg7 m ρ c)
theorem W1_arg8 (c : Dev nD) : W1 m ρ c (Proc.devRef .tc main_arg8) = a8 m c := by
  show StableHlo.after hostOps0 (W0 m ρ c) (Proc.devRef .tc main_arg8) = _
  after_results_simp <;> rfl
theorem W2_arg8 (c : Dev nD) : W2 m ρ c (Proc.devRef .tc main_arg8) = a8 m c :=
  (W2_of_ne m ρ c main_arg8 (by decide)).trans (W1_arg8 m ρ c)

theorem W3_arg2 (c : Dev nD) : W3 m ρ c (Proc.devRef .tc main_arg2) = a2 m c := by
  show StableHlo.after hostOps1 (W2 m ρ c) (Proc.devRef .tc main_arg2) = _
  after_results_simp
  exact W2_arg2 m ρ c
theorem W4_arg2 (c : Dev nD) : W4 m ρ c (Proc.devRef .tc main_arg2) = a2 m c :=
  (W4_of_ne m ρ c main_arg2 (by decide)).trans (W3_arg2 m ρ c)
theorem W3_arg7 (c : Dev nD) : W3 m ρ c (Proc.devRef .tc main_arg7) = a7 m c := by
  show StableHlo.after hostOps1 (W2 m ρ c) (Proc.devRef .tc main_arg7) = _
  after_results_simp
  exact W2_arg7 m ρ c
theorem W4_arg7 (c : Dev nD) : W4 m ρ c (Proc.devRef .tc main_arg7) = a7 m c :=
  (W4_of_ne m ρ c main_arg7 (by decide)).trans (W3_arg7 m ρ c)
theorem W3_arg8 (c : Dev nD) : W3 m ρ c (Proc.devRef .tc main_arg8) = a8 m c := by
  show StableHlo.after hostOps1 (W2 m ρ c) (Proc.devRef .tc main_arg8) = _
  after_results_simp
  exact W2_arg8 m ρ c
theorem W4_arg8 (c : Dev nD) : W4 m ρ c (Proc.devRef .tc main_arg8) = a8 m c :=
  (W4_of_ne m ρ c main_arg8 (by decide)).trans (W3_arg8 m ρ c)

/-! ## After the first host stretch -/

/-- The aggregated input features are the reference's stage of the features and the edge list. -/
theorem s1_feat (c : Dev nD) : W1 m ρ c (Proc.devRef .tc main_v25) = val_main_v25 (F := Ideal) (a0 m c) (a1 m c) := by
  show StableHlo.after hostOps0 (W0 m ρ c) (Proc.devRef .tc main_v25) = _
  after_results_simp
  rfl
/-- The transposed first weights. -/
theorem s1_w (c : Dev nD) : W1 m ρ c (Proc.devRef .tc main_v26) = val_main_v26 (F := Ideal) (a3 m c) := by
  show StableHlo.after hostOps0 (W0 m ρ c) (Proc.devRef .tc main_v26) = _
  after_results_simp
  rfl
/-- The first bias, reshaped to a row. -/
theorem s1_b (c : Dev nD) : W1 m ρ c (Proc.devRef .tc main_v27) = shapeCast S1x128 (a4 m c) shapeCasts_S128_S1x128 := by
  show StableHlo.after hostOps0 (W0 m ρ c) (Proc.devRef .tc main_v27) = _
  after_results_simp
  rfl
/-- The source indices with the self loops appended. -/
theorem s1_src (c : Dev nD) : W1 m ρ c (Proc.devRef .tc main_v5) = val_main_v5 (F := Ideal) (a1 m c) := by
  show StableHlo.after hostOps0 (W0 m ρ c) (Proc.devRef .tc main_v5) = _
  after_results_simp
  rfl
/-- The destination indices with the self loops appended. -/
theorem s1_dst (c : Dev nD) : W1 m ρ c (Proc.devRef .tc main_v6) = val_main_v6 (F := Ideal) (a1 m c) := by
  show StableHlo.after hostOps0 (W0 m ρ c) (Proc.devRef .tc main_v6) = _
  after_results_simp
  rfl

/-! ## After region 0 -/

/-- Region 0's output is the reference's first hidden layer. -/
theorem s2_h (c : Dev nD) : W2 m ρ c (Proc.devRef .tc main_v28)
    = val_main_v31 (F := Ideal) (a0 m c) (a1 m c) (a3 m c) (a4 m c) := by
  refine (W2_arr m ρ c 3).trans ?_
  rw [Region0.final (V1 m ρ) c]
  show reluAffine (W1 m ρ c (Proc.devRef .tc main_v25)) (W1 m ρ c (Proc.devRef .tc main_v26))
      (rowOf (W1 m ρ c (Proc.devRef .tc main_v27))) = _
  rw [s1_feat m ρ c, s1_w m ρ c, s1_b m ρ c, rowOf_shapeCast, Cert.ReferenceIdeal.Layers.layer1_eq]
theorem s2_src (c : Dev nD) : W2 m ρ c (Proc.devRef .tc main_v5) = val_main_v5 (F := Ideal) (a1 m c) :=
  (W2_of_ne m ρ c main_v5 (by decide)).trans (s1_src m ρ c)
theorem s2_dst (c : Dev nD) : W2 m ρ c (Proc.devRef .tc main_v6) = val_main_v6 (F := Ideal) (a1 m c) :=
  (W2_of_ne m ρ c main_v6 (by decide)).trans (s1_dst m ρ c)

/-! ## After the second host stretch -/

/-- The aggregated first hidden layer is the reference's stage: the same aggregation of the same layer over the same
    edge lists. -/
theorem s3_feat (c : Dev nD) : W3 m ρ c (Proc.devRef .tc main_v47)
    = val_main_v53 (F := Ideal) (a0 m c) (a1 m c) (a3 m c) (a4 m c) := by
  show StableHlo.after hostOps1 (W2 m ρ c) (Proc.devRef .tc main_v47) = _
  after_results_simp
  rw [s2_h m ρ c, s2_src m ρ c, s2_dst m ρ c]
  rfl
/-- The transposed second weights. -/
theorem s3_w (c : Dev nD) : W3 m ρ c (Proc.devRef .tc main_v48) = val_main_v54 (F := Ideal) (a5 m c) := by
  show StableHlo.after hostOps1 (W2 m ρ c) (Proc.devRef .tc main_v48) = _
  after_results_simp
  rw [W2_arg5 m ρ c]
  rfl
/-- The second bias, reshaped to a row. -/
theorem s3_b (c : Dev nD) : W3 m ρ c (Proc.devRef .tc main_v49) = shapeCast S1x128 (a6 m c) shapeCasts_S128_S1x128 := by
  show StableHlo.after hostOps1 (W2 m ρ c) (Proc.devRef .tc main_v49) = _
  after_results_simp
  rw [W2_arg6 m ρ c]
  rfl

/-! ## After region 1 -/

/-- Region 1's output is the reference's second hidden layer. -/
theorem s4_h (c : Dev nD) : W4 m ρ c (Proc.devRef .tc main_v50)
    = val_main_v59 (F := Ideal) (a0 m c) (a1 m c) (a3 m c) (a4 m c) (a5 m c) (a6 m c) := by
  refine (W4_arr m ρ c 3).trans ?_
  rw [Region1.final (V3 m ρ) c]
  show reluAffine (W3 m ρ c (Proc.devRef .tc main_v47)) (W3 m ρ c (Proc.devRef .tc main_v48))
      (rowOf (W3 m ρ c (Proc.devRef .tc main_v49))) = _
  rw [s3_feat m ρ c, s3_w m ρ c, s3_b m ρ c, rowOf_shapeCast, Cert.ReferenceIdeal.Layers.layer2_eq]

/-! ## After the third host stretch -/

/-- The second hidden layer pooled over the graphs is the reference's stage. -/
theorem s5_feat (c : Dev nD) : W5 m ρ c (Proc.devRef .tc main_v62)
    = val_main_v71 (F := Ideal) (a0 m c) (a1 m c) (a2 m c) (a3 m c) (a4 m c) (a5 m c) (a6 m c) := by
  show StableHlo.after hostOps2 (W4 m ρ c) (Proc.devRef .tc main_v62) = _
  after_results_simp
  rw [s4_h m ρ c, W4_arg2 m ρ c]
  rfl
/-- The transposed classifier weights. -/
theorem s5_w (c : Dev nD) : W5 m ρ c (Proc.devRef .tc main_v63) = val_main_v73 (F := Ideal) (a7 m c) := by
  show StableHlo.after hostOps2 (W4 m ρ c) (Proc.devRef .tc main_v63) = _
  after_results_simp
  rw [W4_arg7 m ρ c]
  rfl
/-- The classifier bias, reshaped to a row. -/
theorem s5_b (c : Dev nD) : W5 m ρ c (Proc.devRef .tc main_v64) = shapeCast S1x10 (a8 m c) shapeCasts_S10_S1x10 := by
  show StableHlo.after hostOps2 (W4 m ρ c) (Proc.devRef .tc main_v64) = _
  after_results_simp
  rw [W4_arg8 m ρ c]
  rfl

/-! ## After region 2: the result -/

/-- THE RESULT: what the last boundary holds at the result's buffer is the reference's result stage of the
    arguments. -/
theorem result_eq (c : Dev nD) : W6 m ρ c (Proc.devRef .tc main_v65)
    = val_main_v77 (F := Ideal) (a0 m c) (a1 m c) (a2 m c) (a3 m c) (a4 m c) (a5 m c) (a6 m c) (a7 m c) (a8 m c) := by
  refine (W6_arr m ρ c 3).trans ?_
  rw [Region2.final (V5 m ρ) c]
  show affine (relu (W5 m ρ c (Proc.devRef .tc main_v62))) (W5 m ρ c (Proc.devRef .tc main_v63))
      (rowOf (W5 m ρ c (Proc.devRef .tc main_v64))) = _
  rw [s5_feat m ρ c, s5_w m ρ c, s5_b m ρ c, rowOf_shapeCast, Cert.ReferenceIdeal.Layers.layer3_eq]

end Cert.KernelIdeal.Boundaries

end
-- ==== Proof.lean ====
/-
  A two-layer graph network with a graph-level classifier, against its plain reference.

  Both programs take node features `x : [50000, 128]`, an edge list, a graph id per node, and three weight matrices
  with their biases. A layer first replaces every node's features by the mean over its in-neighbours and itself
  (gather along the edge list with the self loops appended, a scatter-add at the destinations, divided by the
  in-degree clamped at one), then applies `h ↦ max(h · Wᵀ + b, 0)`. After two layers the node features are averaged over
  each of the 64 graphs, clamped at zero, and the classifier `g ↦ g · Wcᵀ + bc` gives the `[64, 10]` result.

  The two programs differ only in who computes the three dense layers: the kernel program does each in a region
  (rows in ten blocks of 5000 for the hidden layers, one block for the classifier; operands rounded to bf16 on the way
  into the product, which at the ideal values is the identity; the bias arriving as a row), the reference by a
  `dot_general`, two broadcasts, a sum and a maximum on the host. At the ideal values both are the same function,
  entry by entry the row product plus the bias, clamped where the layer clamps: the sums run over the same index in the
  same order, so no law of the extended reals beyond that is used and the inputs' finiteness is never opened. Everything
  between the layers — the aggregation, the pooling, the transposes — is the same operations on both sides and is
  carried as it stands.

  The frames of the two kernel programs are the generated ones; the reference's is its generated run with the result
  dropped. The ideal pass rewrote nothing, so `preserves` asks nothing. For the value claim the kernel program's run is
  taken with its result named (the last boundary's contents at the result buffer), that buffer is walked back through
  the three regions and three host stretches to the reference's result stage of the arguments, and the reference's run
  ends at the same stage of arguments that agree.
-/
import proofs.«162848_j20289425506743_1_alg».proof.Defs
import proofs.«162848_j20289425506743_1_alg».proof.Proof.Gen.Kernel
import proofs.«162848_j20289425506743_1_alg».proof.Proof.Gen.Kernel.Skeleton
import proofs.«162848_j20289425506743_1_alg».proof.Proof.Gen.Kernel.Launch
import proofs.«162848_j20289425506743_1_alg».proof.Proof.Gen.Kernel.Points
import proofs.«162848_j20289425506743_1_alg».proof.Proof.Gen.Kernel.Frame
import proofs.«162848_j20289425506743_1_alg».proof.Proof.Gen.KernelIdeal
import proofs.«162848_j20289425506743_1_alg».proof.Proof.Gen.KernelIdeal.Skeleton
import proofs.«162848_j20289425506743_1_alg».proof.Proof.Gen.KernelIdeal.Launch
import proofs.«162848_j20289425506743_1_alg».proof.Proof.Gen.KernelIdeal.Points
import proofs.«162848_j20289425506743_1_alg».proof.Proof.Gen.KernelIdeal.Frame
import proofs.«162848_j20289425506743_1_alg».proof.Proof.Gen.ReferenceIdeal
import proofs.«162848_j20289425506743_1_alg».proof.Proof.Gen.ReferenceIdeal.Run
import proofs.«162848_j20289425506743_1_alg».proof.Proof.Gen.ReferenceIdeal.Read
import proofs.«162848_j20289425506743_1_alg».proof.Proof.Gen.Pre_finite_inputs
import proofs.«162848_j20289425506743_1_alg».proof.Proof.KernelRun
import proofs.«162848_j20289425506743_1_alg».proof.Proof.Boundaries
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values both programs end with the result array at the reference's result stage of the arguments:
    the kernel program by walking its result buffer back through its regions and host stretches, the reference by its
    own run, from arguments that agree. -/
theorem algebraic : Cert.algebraic_KernelIdeal_ReferenceIdeal := by
  intro m ρ m' ρ' _ hagree
  refine ⟨_, (θ_run Cert.KernelIdeal.defs _ _).mono
      (fun _ h c => ⟨(h c).1.trans (Cert.KernelIdeal.Boundaries.result_eq m ρ c), (h c).2⟩)
      (Cert.KernelIdeal.RunValue.run_result m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v77_eq, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
